-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x2048_S512 : S512x2048.Reduces [1] S512
  shapeCasts_S512_S512x1 : S512.ShapeCasts S512x1
  broadcasts_S512x1_S512x2048 : S512x1.Broadcasts S512x2048
  broadcasts_S512x1_S512x128 : S512x1.Broadcasts S512x128
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x2048x128.size a
  hwx0_3 : ∀ i : grid0.Coords, EltTy.bits .f32 = 32 ∨ (Rect.block (s := S16x2048x128) S1x512x128.size (cc0_transform_3 i) (hinb0_3 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Softmax.lean ====
/-
  Softmax-weighted averages on the extended reals, one row at a time.

  A row of scores `s : Fin n → EReal` gives weights `w m = exp (s m - M)`, where `M` is the fold of `max` over the
  row from `-∞`. Attention then averages a column of values `v` with these weights, and there are two ways to
  normalise: divide the weighted sum once by the total weight, `(∑ w m · v m) / (∑ w m)`, or divide every weight
  first, `∑ (w m / ∑ w) · v m`. On the extended reals the two differ at the infinities (a product does not
  distribute over a sum there), so the identity is stated where every score and every value is a real number and the
  row is not empty: then `M` is a real, every weight is a positive real, the total weight is a positive real, and
  the identity is the distributive law in `ℝ`.
-/
import Idealize.ShloMosaic.PureOps.Ideal

noncomputable section

namespace Cert.Softmax

open Idealize.ShloMosaic

/-- The inclusion of the reals in the extended reals commutes with a finite sum. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- … and with a maximum of two. -/
theorem coe_max (a b : ℝ) : max (a : EReal) (b : EReal) = ((max a b : ℝ) : EReal) :=
  (EReal.coe_strictMono.monotone.map_max).symm

/-- The fold of `max` from `-∞` over a finite set of reals is a real, unless the set is empty. -/
theorem fold_max_real {ι : Type} (f : ι → EReal) (hf : ∀ i, ∃ r : ℝ, f i = r) (t : Finset ι) :
    t = ∅ ∨ ∃ r : ℝ, t.fold max ⊥ f = r := by
  classical
  induction t using Finset.induction_on with
  | empty => exact Or.inl rfl
  | insert a t ha ih =>
    right
    rw [Finset.fold_insert ha]
    obtain ⟨ra, hra⟩ := hf a
    rcases ih with rfl | ⟨r, hr⟩
    · exact ⟨ra, by rw [Finset.fold_empty, hra, max_eq_left bot_le]⟩
    · exact ⟨max ra r, by rw [hr, hra, coe_max]⟩

variable {n : Nat}

/-- A row's maximum, as a fold of `max` from `-∞` over the row's positions. -/
def rowMax (s : Fin n → EReal) : EReal := (Finset.univ : Finset (Fin n)).fold max ⊥ s

/-- The unnormalised softmax weight of position `m`: `exp (s m - max s)`. -/
def weight (s : Fin n → EReal) (m : Fin n) : EReal := Ideal.exp (s m - rowMax s)

/-- The weighted sum of `v`, divided ONCE by the total weight. -/
def avgOuter (s v : Fin n → EReal) : EReal := Ideal.div (∑ m, weight s m * v m) (∑ m, weight s m)

/-- Every weight divided by the total weight FIRST, then the weighted sum of `v`. -/
def avgInner (s v : Fin n → EReal) : EReal := ∑ m, Ideal.div (weight s m) (∑ m', weight s m') * v m

/-- For real scores and real values on a non-empty row the two normalisations agree: the total weight is a positive
    real `L`, and `(∑ w m · v m) · L⁻¹ = ∑ (w m · L⁻¹) · v m` in `ℝ`. -/
theorem avgOuter_eq_avgInner (hn : 0 < n) (s v : Fin n → EReal) (hs : ∀ m, ∃ r : ℝ, s m = r)
    (hv : ∀ m, ∃ r : ℝ, v m = r) : avgOuter s v = avgInner s v := by
  classical
  choose sr hsr using hs
  choose vr hvr using hv
  obtain ⟨M, hM⟩ : ∃ M : ℝ, rowMax s = M := by
    rcases fold_max_real s (fun m => ⟨sr m, hsr m⟩) Finset.univ with h | h
    · exact absurd h (Finset.univ_nonempty_iff.mpr ⟨⟨0, hn⟩⟩).ne_empty
    · exact h
  have hw : ∀ m, weight s m = ((Real.exp (sr m - M) : ℝ) : EReal) := fun m => by
    unfold weight
    rw [hM, hsr m, ← EReal.coe_sub]
    rfl
  have hL : (∑ m, weight s m) = ((∑ m, Real.exp (sr m - M) : ℝ) : EReal) := by
    rw [coe_sum]
    exact Finset.sum_congr rfl fun m _ => hw m
  have hLne : (∑ m, Real.exp (sr m - M) : ℝ) ≠ 0 :=
    (Finset.sum_pos (fun m _ => Real.exp_pos _) ⟨⟨0, hn⟩, Finset.mem_univ _⟩).ne'
  unfold avgOuter avgInner
  rw [hL]
  simp only [Ideal.div_coe hLne, hw, hvr, ← EReal.coe_mul, ← coe_sum]
  refine congrArg _ ?_
  rw [Finset.sum_mul]
  exact Finset.sum_congr rfl fun m _ => by ring

/-- A scaled inner product of two real vectors is a real. -/
theorem score_real {k : Nat} (q key : Fin k → EReal) (c : EReal) (hq : ∀ d, ∃ r : ℝ, q d = r)
    (hk : ∀ d, ∃ r : ℝ, key d = r) (hc : ∃ r : ℝ, c = r) : ∃ r : ℝ, (∑ d, q d * key d) * c = r := by
  choose qr hqr using hq
  choose kr hkr using hk
  obtain ⟨cr, hcr⟩ := hc
  refine ⟨(∑ d, qr d * kr d) * cr, ?_⟩
  rw [EReal.coe_mul, coe_sum]
  simp only [EReal.coe_mul, hqr, hkr, hcr]

/-- The softmax temperature: what the pattern `0x3DB504F3` (the single-precision number nearest `1/√128`) denotes. -/
abbrev temp : EReal := Ideal.ofBits .f32 0x3DB504F3#32

/-- The temperature is a real number. -/
theorem temp_real : ∃ r : ℝ, temp = r := by
  show ∃ r : ℝ, Ideal.ofBits .f32 0x3DB504F3#32 = r
  unfold Ideal.ofBits Ideal.ieee
  dsimp only
  rw [if_neg (by decide), if_neg (by decide)]
  exact ⟨_, rfl⟩

/-- The pattern `0xFF800000` (sign set, exponent all ones, fraction zero) denotes `-∞`. -/
theorem neg_inf : Ideal.ofBits .f32 0xFF800000#32 = ⊥ := by
  unfold Ideal.ofBits Ideal.ieee
  dsimp only
  rw [if_pos (by decide), if_pos (by decide), if_pos (by decide)]

end Cert.Softmax

end
-- ==== Proof.ColumnLayout.lean ====
/-
  Two layout operations read at an index, for a per-row quantity kept as a column: a vector of length `a` reshaped
  to an `a × 1` column, and such a column repeated along the second axis to an `a × b` matrix. At `(i, j)` both read
  the one entry that belongs to row `i`.
-/
import Idealize.ShloMosaic.Lib.Pipeline.Value
import Idealize.ShloMosaic.Lib.ValueIdx

namespace Cert.ColumnLayout

open Idealize.ShloMosaic Idealize.ShloMosaic.ValueIdx

variable {α : Type}

/-- A length-`a` vector cast to an `a × 1` column reads, at `(i, u)`, the vector at `i`: both have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `a × 1` column broadcast to `a × b` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.ColumnLayout
-- ==== Proof.KernelRow.lean ====
/-
  What the kernel's body leaves in its output block, one entry at a time.

  At a grid point the body holds a block `q` of 512 query rows, and all 2048 key rows `k` and value rows `v` of the
  same batch. Entry `(r, d)` of the block it stores is

      (∑ m, w m · v[m, d]) / (∑ m, w m),     w m = exp (s m - max s),    s m = (∑ e, q[r, e] · k[m, e]) · c

  with `c` the softmax temperature: the softmax-weighted average of column `d` of the values, divided ONCE by the
  total weight. Each operation of the body is read at an index: the two matrix products as sums over their one
  contracted axis, the row maximum and the row sum as a fold and a sum over the key axis, and the reshapes and
  broadcasts around them as re-indexings.
-/
import proofs.«133732_g36258113913187_cont_8to1_b_1881_2_alg».proof.Proof.Gen.KernelIdeal.Skeleton
import proofs.«133732_g36258113913187_cont_8to1_b_1881_2_alg».proof.Proof.Softmax
import proofs.«133732_g36258113913187_cont_8to1_b_1881_2_alg».proof.Proof.ColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Attn

open Cert.KernelIdeal Cert.KernelIdeal.Gen Idealize.ShloMosaic Idealize.ShloMosaic.ValueIdx Cert.ColumnLayout
open Cert.Softmax (temp)

/-! ## The product of the queries with the transposed keys

Both operands are contracted over their second axis: entry `(r, m)` reads row `r` of the left operand and row `m` of
the right. -/

theorem lhs_qk_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_qk_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_qk_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_qk_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- Entry `(r, m)` of the first product is the inner product of row `r` of `a` with row `m` of `b`. -/
theorem qk_apply (a : FVec Ideal S512x128 .f32) (b : FVec Ideal S2048x128 .f32) (r : Fin 512) (m : Fin 2048) :
    matmul dot_S512x128_S2048x128_S512x2048_1_1_0_0_n_n none a b (constant S512x2048 .f32 0x00000000#32) (ix2 r m)
      = ∑ e : Fin 128, a (ix2 r e) * b (ix2 m e) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 r m) ((contrEquiv1 dot_S512x128_S2048x128_S512x2048_1_1_0_0_n_n 128 rfl rfl).symm k) = ix2 r k := funext fun ax => Fin.ext (by
    match ax with
    | ⟨0, _⟩ => exact lhs_qk_0 _ _
    | ⟨1, _⟩ => exact (lhs_qk_1 _ _).trans hk)
  have er : dot_S512x128_S2048x128_S512x2048_1_1_0_0_n_n.rhsIdx (ix2 r m) ((contrEquiv1 dot_S512x128_S2048x128_S512x2048_1_1_0_0_n_n 128 rfl rfl).symm k) = ix2 m k := funext fun ax => Fin.ext (by
    match ax with
    | ⟨0, _⟩ => exact rhs_qk_0 _ _
    | ⟨1, _⟩ => exact (rhs_qk_1 _ _).trans hk)
  rw [el, er]

/-! ## The product of the weights with the values

The left operand is contracted over its second axis and the right over its first: entry `(r, d)` reads row `r` of the
weights and column `d` of the values. -/

theorem lhs_pv_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_pv_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_pv_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_pv_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Entry `(r, d)` of the second product is the sum over the keys `m` of weight `(r, m)` times value `(m, d)`. -/
theorem pv_apply (p : FVec Ideal S512x2048 .f32) (b : FVec Ideal S2048x128 .f32) (r : Fin 512) (d : Fin 128) :
    matmul dot_S512x2048_S2048x128_S512x128_1_0_0_1_n_n none p b (constant S512x128 .f32 0x00000000#32) (ix2 r d)
      = ∑ m : Fin 2048, p (ix2 r m) * b (ix2 m d) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r d) ((contrEquiv1 dot_S512x2048_S2048x128_S512x128_1_0_0_1_n_n 2048 rfl rfl).symm k) = ix2 r k := funext fun ax => Fin.ext (by
    match ax with
    | ⟨0, _⟩ => exact lhs_pv_0 _ _
    | ⟨1, _⟩ => exact (lhs_pv_1 _ _).trans hk)
  have er : dot_S512x2048_S2048x128_S512x128_1_0_0_1_n_n.rhsIdx (ix2 r d) ((contrEquiv1 dot_S512x2048_S2048x128_S512x128_1_0_0_1_n_n 2048 rfl rfl).symm k) = ix2 k d := funext fun ax => Fin.ext (by
    match ax with
    | ⟨0, _⟩ => exact (rhs_pv_0 _ _).trans hk
    | ⟨1, _⟩ => exact rhs_pv_1 _ _)
  rw [el, er]

/-! ## The two reductions along the key axis -/

/-- The index of a `512 × 2048` matrix got by inserting the key position `m` into row index `r`. -/
theorem lift_eq (r : Fin 512) (m : Fin 2048) :
    reduces_S512x2048_S512.lift (ix1 r) m = (ix2 r m : S512x2048.Idx) :=
  funext fun ax => Fin.ext (by match ax with | ⟨0, _⟩ => rfl | ⟨1, _⟩ => rfl)

/-- A row's maximum from `-∞` is the fold of `max` over the row. -/
theorem rowMax_apply (s : FVec Ideal S512x2048 .f32) (hacc : (0xFF800000#32 : BitVec 32) = 0xFF800000#32) (r : Fin 512) :
    multiReduction .maximumf [1] S512 s 0xFF800000#32 reduces_S512x2048_S512 (.inl rfl) hacc (ix1 r)
      = Softmax.rowMax fun m : Fin 2048 => s (ix2 r m) := by
  refine (Ideal.multiReduction_maximumf_single s 0xFF800000#32 reduces_S512x2048_S512 (.inl rfl) hacc (ix1 r)).trans ?_
  unfold Softmax.rowMax
  have e : (s ∘ reduces_S512x2048_S512.lift (ix1 r)) = fun m : Fin 2048 => s (ix2 r m) :=
    funext fun m => congrArg s (lift_eq r m)
  rw [e]
  exact congrArg (fun z => (Finset.univ : Finset (Fin 2048)).fold max z fun m : Fin 2048 => s (ix2 r m)) Softmax.neg_inf

/-- A row's sum from zero is the sum over the row. -/
theorem rowSum_apply (p : FVec Ideal S512x2048 .f32) (hacc : (0x00000000#32 : BitVec 32) = 0x00000000#32) (r : Fin 512) :
    multiReduction .add [1] S512 p 0x00000000#32 reduces_S512x2048_S512 (.inl rfl) hacc (ix1 r)
      = ∑ m : Fin 2048, p (ix2 r m) := by
  refine (Ideal.multiReduction_add_single p 0x00000000#32 reduces_S512x2048_S512 (.inl rfl) hacc (ix1 r)).trans ?_
  exact Finset.sum_congr rfl fun m _ => congrArg p (lift_eq r m)

/-! ## The body's three stages, read at an index -/

/-- The scaled scores of a block of queries against all keys. -/
def scores (q : FVec Ideal S512x128 .f32) (k : FVec Ideal S2048x128 .f32) : FVec Ideal S512x2048 .f32 :=
  mulf (matmul dot_S512x128_S2048x128_S512x2048_1_1_0_0_n_n none q k (constant S512x2048 .f32 0x00000000#32))
    (broadcast S512x2048 (Scalar.ofBits .f32 0x3DB504F3#32))

/-- The unnormalised softmax weights of a matrix of scores, row by row. -/
def weights (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- The weighted sums of the values' columns, each row divided by its total weight. -/
def normalised (p : FVec Ideal S512x2048 .f32) (v : FVec Ideal S2048x128 .f32) : FVec Ideal S512x128 .f32 :=
  divf (matmul dot_S512x2048_S2048x128_S512x128_1_0_0_1_n_n none p v (constant S512x128 .f32 0x00000000#32))
    (broadcastTo S512x128 (shapeCast S512x1
      (multiReduction .add [1] S512 p 0x00000000#32 reduces_S512x2048_S512 (.inl rfl) rfl) shapeCasts_S512_S512x1)
      broadcasts_S512x1_S512x128)

/-- The body's stored value is the three stages composed, between the reshapes that drop and restore the blocks'
    leading unit axis. -/
theorem pay_eq (x0 : Vec Ideal S1x512x128 .f32) (x1 x2 : Vec Ideal S1x2048x128 .f32) :
    k0_pay1 (F := Ideal) x0 x1 x2
      = shapeCast S1x512x128 (normalised (weights (scores (shapeCast S512x128 x0 shapeCasts_S1x512x128_S512x128)
          (shapeCast S2048x128 x1 shapeCasts_S1x2048x128_S2048x128)))
          (shapeCast S2048x128 x2 shapeCasts_S1x2048x128_S2048x128)) shapeCasts_S512x128_S1x512x128 := rfl

theorem scores_apply (q : FVec Ideal S512x128 .f32) (k : FVec Ideal S2048x128 .f32) (r : Fin 512) (m : Fin 2048) :
    scores q k (ix2 r m) = (∑ e : Fin 128, q (ix2 r e) * k (ix2 m e)) * temp :=
  congrArg (· * temp) (qk_apply q k r m)

theorem weights_apply (s : FVec Ideal S512x2048 .f32) (r : Fin 512) (m : Fin 2048) :
    weights s (ix2 r m) = Softmax.weight (fun m' : Fin 2048 => s (ix2 r m')) m :=
  congrArg (fun z => Ideal.exp (s (ix2 r m) - z))
    ((broadcastTo_a1_ab_apply _ broadcasts_S512x1_S512x2048 r m).trans
      ((shapeCast_a_a1_apply _ shapeCasts_S512_S512x1 r 0).trans (rowMax_apply s rfl r)))

theorem normalised_apply (p : FVec Ideal S512x2048 .f32) (v : FVec Ideal S2048x128 .f32) (r : Fin 512) (d : Fin 128) :
    normalised p v (ix2 r d) = Ideal.div (∑ m : Fin 2048, p (ix2 r m) * v (ix2 m d)) (∑ m : Fin 2048, p (ix2 r m)) :=
  congrArg₂ Ideal.div (pv_apply p v r d)
    ((broadcastTo_a1_ab_apply _ broadcasts_S512x1_S512x128 r d).trans
      ((shapeCast_a_a1_apply _ shapeCasts_S512_S512x1 r 0).trans (rowSum_apply p rfl r)))

/-- ENTRY `(u, r, d)` OF THE STORED BLOCK: the softmax-weighted average of column `d` of the value block, with the
    scores of query row `r` against every key row, divided once by the total weight. -/
theorem pay_apply (x0 : Vec Ideal S1x512x128 .f32) (x1 x2 : Vec Ideal S1x2048x128 .f32) (u : Fin 1) (r : Fin 512)
    (d : Fin 128) :
    k0_pay1 (F := Ideal) x0 x1 x2 (ix3 u r d)
      = Softmax.avgOuter (fun m : Fin 2048 => (∑ e : Fin 128, x0 (ix3 (0 : Fin 1) r e) * x1 (ix3 (0 : Fin 1) m e)) * temp)
          (fun m : Fin 2048 => x2 (ix3 (0 : Fin 1) m d)) := by
  rw [pay_eq]
  refine (shapeCast_ab_1ab_apply _ shapeCasts_S512x128_S1x512x128 u r d).trans ?_
  refine (normalised_apply _ _ r d).trans ?_
  unfold Softmax.avgOuter
  simp only [weights_apply, scores_apply, shapeCast_1ab_ab_apply]

/-- The same at any index of the block, the row and the feature read off the index's coordinates. -/
theorem pay_apply_idx (x0 : Vec Ideal S1x512x128 .f32) (x1 x2 : Vec Ideal S1x2048x128 .f32) (y : S1x512x128.Idx) :
    k0_pay1 (F := Ideal) x0 x1 x2 y
      = Softmax.avgOuter
          (fun m : Fin 2048 => (∑ e : Fin 128, x0 (ix3 (0 : Fin 1) ⟨(y 1).val, (y 1).isLt⟩ e) * x1 (ix3 (0 : Fin 1) m e)) * temp)
          (fun m : Fin 2048 => x2 (ix3 (0 : Fin 1) m ⟨(y 2).val, (y 2).isLt⟩)) := by
  obtain ⟨u, r, d, rfl⟩ : ∃ (u : Fin 1) (r : Fin 512) (d : Fin 128), y = ix3 u r d := ⟨y 0, y 1, y 2, eq_ix3 y⟩
  exact pay_apply x0 x1 x2 u r d

end Cert.KernelIdeal.Attn

end
-- ==== Proof.Attention.lean ====
/-
  Softmax attention over a batch, as one function of the three argument arrays.

  Queries, keys and values are arrays `[16, 2048, 128]`: batch, position, feature. Output entry `(b, n, d)` is the
  softmax-weighted average over the key positions `m` of the values `V[b, m, d]`, the score of `m` being the inner
  product of query row `(b, n)` with key row `(b, m)` times the temperature. The average is written in its two
  arrangements — the weighted sum divided once by the total weight, and every weight divided by the total first — and
  the two arrays agree when every entry of the three arguments is a real number (the row law of the softmax module,
  at each output entry).
-/
import proofs.«133732_g36258113913187_cont_8to1_b_1881_2_alg».proof.Proof.Softmax
import Idealize.ShloMosaic.Lib.ValueIdx

noncomputable section

namespace Cert.Attention

open Idealize.ShloMosaic Idealize.ShloMosaic.ValueIdx Cert.Softmax

/-- An argument or result array at the exact values. -/
abbrev Arr : Type := (⟨3, ![16, 2048, 128]⟩ : Shape).Idx → EReal

/-- The scores of query row `(b, n)` against every key row of batch `b`. -/
def scoreRow (Q K : Arr) (b : Fin 16) (n : Fin 2048) : Fin 2048 → EReal :=
  fun m => (∑ e : Fin 128, Q (ix3 b n e) * K (ix3 b m e)) * temp

/-- Column `d` of the values of batch `b`. -/
def valueCol (V : Arr) (b : Fin 16) (d : Fin 128) : Fin 2048 → EReal := fun m => V (ix3 b m d)

/-- Attention with each row's weighted sum divided ONCE by the row's total weight. -/
def divideOnce (Q K V : Arr) : Arr := fun i =>
  avgOuter (scoreRow Q K ⟨(i 0).val, (i 0).isLt⟩ ⟨(i 1).val, (i 1).isLt⟩)
    (valueCol V ⟨(i 0).val, (i 0).isLt⟩ ⟨(i 2).val, (i 2).isLt⟩)

/-- Attention with EVERY weight divided by its row's total weight before the weighted sum. -/
def divideEach (Q K V : Arr) : Arr := fun i =>
  avgInner (scoreRow Q K ⟨(i 0).val, (i 0).isLt⟩ ⟨(i 1).val, (i 1).isLt⟩)
    (valueCol V ⟨(i 0).val, (i 0).isLt⟩ ⟨(i 2).val, (i 2).isLt⟩)

/-- On arrays of real numbers the two arrangements are one array: every score is a real (a finite sum of products of
    reals, times the temperature) and every value is, so the row law applies at each output entry. -/
theorem divideOnce_eq_divideEach (Q K V : Arr) (hQ : ∀ i, ∃ r : ℝ, Q i = r) (hK : ∀ i, ∃ r : ℝ, K i = r)
    (hV : ∀ i, ∃ r : ℝ, V i = r) : divideOnce Q K V = divideEach Q K V :=
  funext fun i => avgOuter_eq_avgInner (by decide) _ _
    (fun m => score_real _ _ _ (fun e => hQ _) (fun e => hK _) temp_real) (fun m => hV _)

end Cert.Attention

end
-- ==== Proof.KernelBlocks.lean ====
/-
  The kernel's windows over its arrays.

  The grid has a point for each batch `b` and each block `i` of 512 consecutive query rows. At a point the query window
  and the output window hold rows `512·i … 512·i + 511` of batch `b`, and the key and value windows hold all 2048 rows
  of batch `b`. Here: the index maps' relations, decided once over the 64 points; each input block read at an entry
  as the argument array at the matching index; and the output blocks tile the output array.
-/
import proofs.«133732_g36258113913187_cont_8to1_b_1881_2_alg».proof.Proof.Gen.KernelIdeal.Value
import proofs.«133732_g36258113913187_cont_8to1_b_1881_2_alg».proof.Proof.KernelRow
import proofs.«133732_g36258113913187_cont_8to1_b_1881_2_alg».proof.Proof.Attention

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx Cert.Attention Cert.Softmax
open Idealize.ShloMosaic.Pipeline (Dat)

variable (m : (ℓ : Loc nD τ sig) → Buf (Elt Ideal) ℓ) (ρ : Dev nD → PrngReg)

/-- The three input blocks at a point and the three argument arrays, at their literal types. -/
abbrev qB (c : Dev nD) (t : Fin cfg0.N) : Vec Ideal S1x512x128 .f32 := iblk m c 0 t
abbrev kB (c : Dev nD) (t : Fin cfg0.N) : Vec Ideal S1x2048x128 .f32 := iblk m c 1 t
abbrev vB (c : Dev nD) (t : Fin cfg0.N) : Vec Ideal S1x2048x128 .f32 := iblk m c 2 t
abbrev qA (c : Dev nD) : Vec Ideal S16x2048x128 .f32 := V m c main_arg0
abbrev kA (c : Dev nD) : Vec Ideal S16x2048x128 .f32 := V m c main_arg1
abbrev vA (c : Dev nD) : Vec Ideal S16x2048x128 .f32 := V m c main_arg2

theorem hz : (![0, 0, 0] : Fin 3 → Nat) = fun _ => 0 := funext fun a => by fin_cases a <;> rfl

/-- The body's one store fills its buffer, so the buffer ends at the stored value of the loaded blocks. -/
theorem out_eq_pay (x0 : Vec Ideal S1x512x128 .f32) (x1 x2 : Vec Ideal S1x2048x128 .f32) :
    out0_3 x0 x1 x2 = k0_pay1 (F := Ideal) x0 x1 x2 := by
  unfold out0_3
  rw [View.canon_unit_zero hz]
  simp only [View.ld_unit_zero (S := S1x512x128) hz, View.ld_unit_zero (S := S1x2048x128) hz]

/-- The index maps over the 64 grid points: the query window moves with the output window; the key and value windows
    follow its batch and stay at position block 0; nothing moves along the feature axis. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 3 ∧ win0_3.index t (2 : Fin 3) = 0 :=
  (by decide +kernel : ∀ t : Fin grid0.N, _)

/-- Every (batch, row block) pair is some point's output block. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-! ## The input blocks, read where the output block's entry lies -/

/-- Row `r` of the query block at point `t` is row `512·i + r` of the queries of the point's batch. -/
theorem qblk_read (c : Dev nD) (t : Fin cfg0.N) (r : Fin 512) (e : Fin 128) (i : S16x2048x128.Idx)
    (h0 : (i 0).val = win0_0.index t (0 : Fin 3)) (h1 : (i 1).val = win0_0.index t (1 : Fin 3) * 512 + r.val)
    (h2 : (i 2).val = win0_0.index t (2 : Fin 3) * 128 + e.val) :
    qB m c t (ix3 (0 : Fin 1) r e) = qA m c i := by
  show V m c main_arg0 (((cfg0.win 0).blk t).view.emb (ix3 (0 : Fin 1) r e)) = V m c main_arg0 i
  refine congrArg (V m c main_arg0) (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 128 + 1 * e.val = (i 2).val; omega

/-- Row `mm` of the key block at point `t` is row `mm` of the keys of the point's batch. -/
theorem kblk_read (c : Dev nD) (t : Fin cfg0.N) (mm : Fin 2048) (e : Fin 128) (i : S16x2048x128.Idx)
    (h0 : (i 0).val = win0_1.index t (0 : Fin 3)) (h1 : (i 1).val = win0_1.index t (1 : Fin 3) * 2048 + mm.val)
    (h2 : (i 2).val = win0_1.index t (2 : Fin 3) * 128 + e.val) :
    kB m c t (ix3 (0 : Fin 1) mm e) = kA m c i := by
  show V m c main_arg1 (((cfg0.win 1).blk t).view.emb (ix3 (0 : Fin 1) mm e)) = V m c main_arg1 i
  refine congrArg (V m c main_arg1) (funext fun a => Fin.ext ?_)
  match a with
  | ⟨0, _⟩ => show win0_1.index t (0 : Fin 3) * 1 + 1 * 0 = (i 0).val; omega
  | ⟨1, _⟩ => show win0_1.index t (1 : Fin 3) * 2048 + 1 * mm.val = (i 1).val; omega
  | ⟨2, _⟩ => show win0_1.index t (2 : Fin 3) * 128 + 1 * e.val = (i 2).val; omega

/-- Row `mm` of the value block at point `t` is row `mm` of the values of the point's batch. -/
theorem vblk_read (c : Dev nD) (t : Fin cfg0.N) (mm : Fin 2048) (e : Fin 128) (i : S16x2048x128.Idx)
    (h0 : (i 0).val = win0_2.index t (0 : Fin 3)) (h1 : (i 1).val = win0_2.index t (1 : Fin 3) * 2048 + mm.val)
    (h2 : (i 2).val = win0_2.index t (2 : Fin 3) * 128 + e.val) :
    vB m c t (ix3 (0 : Fin 1) mm e) = vA m c i := by
  show V m c main_arg2 (((cfg0.win 2).blk t).view.emb (ix3 (0 : Fin 1) mm e)) = V m c main_arg2 i
  refine congrArg (V m c main_arg2) (funext fun a => Fin.ext ?_)
  match a with
  | ⟨0, _⟩ => show win0_2.index t (0 : Fin 3) * 1 + 1 * 0 = (i 0).val; omega
  | ⟨1, _⟩ => show win0_2.index t (1 : Fin 3) * 2048 + 1 * mm.val = (i 1).val; omega
  | ⟨2, _⟩ => show win0_2.index t (2 : Fin 3) * 128 + 1 * e.val = (i 2).val; omega

/-! ## The output blocks tile the array -/

/-- An index of the array is in point `t`'s output block iff each coordinate is in the block's range on its axis. -/
theorem mem_blk (t : Fin cfg0.N) (i : S16x2048x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v0).slice (win0_3.rect t)).set ↔ _
  rw [View.set_slice_whole, Rect.mem_set_unit]
  exact Iff.rfl

/-- Every index of the array lies in the output block of the point of its batch and of its row's block of 512. -/
theorem cover (i : S16x2048x128.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

end Cert.KernelIdeal.Attn

end
-- ==== Proof.KernelArray.lean ====
/-
  From the kernel's blocks to its whole output array.

  Entry `(·, r, d)` of the block stored at a grid point is the softmax-weighted average computed from the point's input
  blocks; reading each input block as its argument array, it is entry `(b, 512·i + r, d)` of attention with each row
  divided once. The output blocks tile the array, so the array ends holding that function of the three arguments.
-/
import proofs.«133732_g36258113913187_cont_8to1_b_1881_2_alg».proof.Proof.KernelBlocks

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx Cert.Attention Cert.Softmax
open Idealize.ShloMosaic.Pipeline (Dat)

variable (m : (ℓ : Loc nD τ sig) → Buf (Elt Ideal) ℓ) (ρ : Dev nD → PrngReg)

/-- The average computed from the input blocks at point `t`, for row `r` of the query block and feature `d`, is
    attention's entry at any array index `i` in the point's batch, at row `r` of its row block, at feature `d`. -/
theorem entry_of_blocks (c : Dev nD) (t : Fin cfg0.N) (r : Fin 512) (d : Fin 128) (i : S16x2048x128.Idx)
    (h0 : (i 0).val = win0_3.index t (0 : Fin 3)) (h1 : (i 1).val = win0_3.index t (1 : Fin 3) * 512 + r.val)
    (h2 : (i 2).val = d.val) :
    avgOuter (fun mm : Fin 2048 => (∑ e : Fin 128, qB m c t (ix3 (0 : Fin 1) r e) * kB m c t (ix3 (0 : Fin 1) mm e)) * temp)
        (fun mm : Fin 2048 => vB m c t (ix3 (0 : Fin 1) mm d))
      = divideOnce (qA m c) (kA m c) (vA m c) i := by
  obtain ⟨e00, e01, e02, e10, e11, e12, e20, e21, e22, b0, b1, b2⟩ := idx_facts t
  unfold divideOnce
  refine congrArg₂ avgOuter (funext fun mm => ?_) (funext fun mm => ?_)
  · unfold scoreRow
    refine congrArg (· * temp) (Finset.sum_congr rfl fun e _ => congrArg₂ (· * ·) ?_ ?_)
    · exact qblk_read m c t r e (ix3 ⟨(i 0).val, (i 0).isLt⟩ ⟨(i 1).val, (i 1).isLt⟩ e)
        (by show (i 0).val = _; omega) (by show (i 1).val = _; omega) (by show e.val = _; omega)
    · exact kblk_read m c t mm e (ix3 ⟨(i 0).val, (i 0).isLt⟩ mm e)
        (by show (i 0).val = _; omega) (by show mm.val = _; omega) (by show e.val = _; omega)
  · unfold valueCol
    exact vblk_read m c t mm d (ix3 ⟨(i 0).val, (i 0).isLt⟩ mm ⟨(i 2).val, (i 2).isLt⟩)
      (by show (i 0).val = _; omega) (by show mm.val = _; omega) (by show (i 2).val = _; omega)

/-- The stored value at index `y` of the block at point `t` is attention's entry at the array index `i` that `y`
    lands on. -/
theorem pay_at (c : Dev nD) (t : Fin cfg0.N) (y : S1x512x128.Idx) (i : S16x2048x128.Idx)
    (h0 : (i 0).val = win0_3.index t (0 : Fin 3)) (h1 : (i 1).val = win0_3.index t (1 : Fin 3) * 512 + (y 1).val)
    (h2 : (i 2).val = (y 2).val) :
    k0_pay1 (F := Ideal) (qB m c t) (kB m c t) (vB m c t) y = divideOnce (qA m c) (kA m c) (vA m c) i :=
  (pay_apply_idx (qB m c t) (kB m c t) (vB m c t) y).trans
    (entry_of_blocks m c t ⟨(y 1).val, (y 1).isLt⟩ ⟨(y 2).val, (y 2).isLt⟩ i h0 h1 h2)

/-- WHAT POINT `t` WRITES BACK is block `t` of attention, each row divided once, of the argument arrays. -/
theorem flushed_eq (c : Dev nD) (t : Fin cfg0.N) :
    (dats m 0 c).flushed 3 t
      = ((cfg0.win 3).blk t).view.read (Elt Ideal) (divideOnce (qA m c) (kA m c) (vA m c)) := by
  rw [Value.flushed3, out_eq_pay]
  obtain ⟨e00, e01, e02, e10, e11, e12, e20, e21, e22, b0, b1, b2⟩ := idx_facts t
  funext j
  rw [View.read_apply]
  have hj0 : (j 0).val < 1 := (j 0).isLt
  exact pay_at m c t ((cfg0.win 3).xinj (grid0.coords t) j) (((cfg0.win 3).blk t).view.emb j)
    (by show win0_3.index t (0 : Fin 3) * 1 + 1 * (j 0).val = _; omega)
    (by show win0_3.index t (1 : Fin 3) * 512 + 1 * (j 1).val = _ + (j 1).val; omega)
    (by show win0_3.index t (2 : Fin 3) * 128 + 1 * (j 2).val = (j 2).val; omega)

/-- THE ARRAY after the run is attention, each row divided once, of the argument arrays. -/
theorem final (c : Dev nD) :
    (dats m 0 c).arrAt 3 cfg0.N
      = divideOnce (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, with its result array named as that function of the arguments. -/
theorem run : θ_run defs (onTc (τ := τ) (main (F := Ideal))) ⟨m, fun _ => 0, ρ⟩ fun r => ∀ c : Dev nD,
      r.2.mem ((c : Thread nD τ).loc main_v0)
        = divideOnce (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Attn

end
-- ==== Proof.RefArray.lean ====
/-
  The reference's result, index by index.

  The reference computes, for the whole batch at once: the scores `c · (∑ e, Q[b,n,e] · K[b,m,e])`; each row's maximum
  (a fold of `max` from `-∞`, then once more `max` with `-∞`, which changes nothing); the weights `exp (s - max)`; each
  row's total weight; every weight divided by its row's total; and the product of that matrix with the values. At
  output entry `(b, n, d)` this is attention with EVERY weight divided by the total weight before the weighted sum.
  The temperature multiplies from the left here and from the right in the kernel; multiplication of extended reals
  commutes.
-/
import proofs.«133732_g36258113913187_cont_8to1_b_1881_2_alg».proof.Proof.Gen.ReferenceIdeal.Read
import proofs.«133732_g36258113913187_cont_8to1_b_1881_2_alg».proof.Proof.Attention
import Idealize.ShloMosaic.PureOps.Reduce

noncomputable section

namespace Cert.ReferenceIdeal.Attn

open Cert.ReferenceIdeal Cert.ReferenceIdeal.Gen Cert.ReferenceIdeal.Read Idealize.ShloMosaic
open Idealize.ShloMosaic.ValueIdx Cert.Attention Cert.Softmax

variable (Q K V : (⟨S16x2048x128, .f32⟩ : BufTy).Contents (Elt Ideal))

/-- The scores, read at `(b, n, m)`. -/
theorem scores_apply (b : Fin 16) (n m : Fin 2048) :
    val_main_v2 (F := Ideal) Q K (ix3 b n m) = scoreRow Q K b n m := by
  rw [val_main_v2_apply, val_main_v1_apply, val_main_cst_apply, val_main_v0_apply]
  show Ideal.ofBits .f32 0x3DB504F3#32 * _ = _
  rw [mul_comm]
  unfold scoreRow
  refine congrArg (· * temp) (Finset.sum_congr rfl fun e _ => congrArg₂ (· * ·) (congrArg Q ?_) (congrArg K ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The reduction over the key axis, as a fact about the two shapes. -/
theorem reduces_keys : S16x2048x2048.Reduces [2] S16x2048 := by decide

/-- The index of a `16 × 2048 × 2048` array got by inserting the key position `m` into `(b, n)`. -/
theorem lift_keys (b : Fin 16) (n m : Fin 2048) :
    reduces_keys.lift (ix2 b n) m = (ix3 b n m : S16x2048x2048.Idx) :=
  funext fun a => Fin.ext (by match a with | ⟨0, _⟩ => rfl | ⟨1, _⟩ => rfl | ⟨2, _⟩ => rfl)

/-- The host's maximum over the key axis from `-∞`, at `(b, n)`, is the fold of `max` over the row. -/
theorem hostRowMax (x : FVec Ideal S16x2048x2048 .f32) (b : Fin 16) (n : Fin 2048) :
    Host.reduce FloatOps.maximumf x (constant (F := Ideal) S_ .f32 0xFF800000#32) reducesTo_S16x2048x2048_S16x2048_d2 h_S_ (ix2 b n)
      = rowMax fun m : Fin 2048 => x (ix3 b n m) := by
  rw [Host.reduce_eq_fold_single FloatOps.maximumf x _ reducesTo_S16x2048x2048_S16x2048_d2 reduces_keys h_S_]
  unfold rowMax
  have e : (x ∘ reduces_keys.lift (ix2 b n)) = fun m : Fin 2048 => x (ix3 b n m) :=
    funext fun m => congrArg x (lift_keys b n m)
  rw [e]
  exact congrArg (fun z => (Finset.univ : Finset (Fin 2048)).fold max z fun m : Fin 2048 => x (ix3 b n m)) neg_inf

/-- Each row's maximum, read at `(b, n)`: the fold of `max` from `-∞` over the row's scores. -/
theorem rowMax_apply (b : Fin 16) (n : Fin 2048) :
    val_main_v3 (F := Ideal) Q K (ix2 b n) = rowMax (scoreRow Q K b n) :=
  (hostRowMax (val_main_v2 (F := Ideal) Q K) b n).trans
    (congrArg rowMax (funext fun m => scores_apply Q K b n m))

/-- The second `max` with `-∞` leaves the row's maximum as it is. -/
theorem rowMax'_apply (b : Fin 16) (n : Fin 2048) :
    val_main_v5 (F := Ideal) Q K (ix2 b n) = rowMax (scoreRow Q K b n) := by
  rw [val_main_v5_apply, val_main_v4_apply, val_main_cst_1_apply, rowMax_apply]
  show max (Ideal.ofBits .f32 0xFF800000#32) _ = _
  rw [neg_inf]
  exact max_eq_right bot_le

/-- The weights, read at `(b, n, m)`. -/
theorem weights_apply (b : Fin 16) (n m : Fin 2048) :
    val_main_v9 (F := Ideal) Q K (ix3 b n m) = weight (scoreRow Q K b n) m := by
  rw [val_main_v9_apply, val_main_v8_apply, val_main_v7_apply, val_main_v6_apply, scores_apply]
  have e : idx_main_v6 (idx_main_v7 (ix3 b n m)) = (ix2 b n : S16x2048.Idx) :=
    funext fun a => Fin.ext (by match a with | ⟨0, _⟩ => rfl | ⟨1, _⟩ => rfl)
  rw [e, rowMax'_apply]
  rfl

/-- Each row's total weight, read at `(b, n)`. -/
theorem total_apply (b : Fin 16) (n : Fin 2048) :
    val_main_v10 (F := Ideal) Q K (ix2 b n) = ∑ m : Fin 2048, weight (scoreRow Q K b n) m := by
  rw [val_main_v10_apply, val_main_cst_2_apply]
  show Ideal.ofBits .f32 0x00000000#32 + _ = _
  rw [Ideal.ofBits_zero_f32, zero_add]
  refine Finset.sum_congr rfl fun m _ => (congrArg (val_main_v9 (F := Ideal) Q K) ?_).trans (weights_apply Q K b n m)
  exact funext fun a => Fin.ext (by match a with | ⟨0, _⟩ => rfl | ⟨1, _⟩ => rfl | ⟨2, _⟩ => rfl)

/-- The normalised weights, read at `(b, n, m)`: the weight divided by its row's total. -/
theorem normalised_apply (b : Fin 16) (n m : Fin 2048) :
    val_main_v13 (F := Ideal) Q K (ix3 b n m)
      = Ideal.div (weight (scoreRow Q K b n) m) (∑ m' : Fin 2048, weight (scoreRow Q K b n) m') := by
  rw [val_main_v13_apply, val_main_v12_apply, val_main_v11_apply, weights_apply]
  have e : idx_main_v11 (idx_main_v12 (ix3 b n m)) = (ix2 b n : S16x2048.Idx) :=
    funext fun a => Fin.ext (by match a with | ⟨0, _⟩ => rfl | ⟨1, _⟩ => rfl)
  rw [e, total_apply]
  rfl

/-- THE REFERENCE'S RESULT is attention with every weight divided by its row's total before the weighted sum. -/
theorem result_eq : val_main_v14 (F := Ideal) Q K V = divideEach Q K V := by
  funext i
  rw [val_main_v14_apply]
  unfold divideEach avgInner
  refine Finset.sum_congr rfl fun m _ => congrArg₂ (· * ·) ?_ ?_
  · refine (congrArg (val_main_v13 (F := Ideal) Q K) ?_).trans
      (normalised_apply Q K ⟨(i 0).val, (i 0).isLt⟩ ⟨(i 1).val, (i 1).isLt⟩ m)
    exact funext fun a => Fin.ext (by match a with | ⟨0, _⟩ => rfl | ⟨1, _⟩ => rfl | ⟨2, _⟩ => rfl)
  · unfold valueCol
    exact congrArg V (funext fun a => Fin.ext (by match a with | ⟨0, _⟩ => rfl | ⟨1, _⟩ => rfl | ⟨2, _⟩ => rfl))

end Cert.ReferenceIdeal.Attn

end
-- ==== Proof.Finite.lean ====
/-
  What the precondition gives: every entry of the three inputs is a real number.

  The precondition compares the absolute value of every entry with `+∞` (the pattern `0x7F800000`) and takes the
  conjunction over each array and then over the three arrays. An extended real whose absolute value `max x (-x)` is
  below `+∞` is neither `+∞` nor `-∞`, so it is a real.
-/
import proofs.«133732_g36258113913187_cont_8to1_b_1881_2_alg».proof.Pre_finite_inputs
import proofs.«133732_g36258113913187_cont_8to1_b_1881_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic

instance : Subsingleton S_.Idx := ⟨fun a b => funext fun d => d.elim0⟩

/-- The pattern `0x7F800000` (sign clear, exponent all ones, fraction zero) denotes `+∞`. -/
theorem pos_inf : Ideal.ofBits .f32 0x7F800000#32 = ⊤ := by
  unfold Ideal.ofBits Ideal.ieee
  dsimp only
  rw [if_pos (by decide), if_pos (by decide), if_neg (by decide)]

/-- An extended real whose absolute value compares below `+∞` is a real number. -/
theorem real_of_abs_lt (x : EReal)
    (h : Ideal.cmp .olt (max x (-x)) (Ideal.ofBits .f32 0x7F800000#32) = 1#1) : ∃ r : ℝ, x = r := by
  rw [pos_inf] at h
  induction x using EReal.rec with
  | bot => exact absurd h (by simp [Ideal.cmp])
  | top => exact absurd h (by simp [Ideal.cmp])
  | coe r => exact ⟨r, rfl⟩

/-- Under the precondition every entry of each of the three arrays is a real number. -/
theorem real_of_pre (x0 x1 x2 : FVec Ideal S16x2048x128 .f32) (h : fn (F := Ideal) x0 x1 x2 = fun _ => 1#1) :
    (∀ i, ∃ r : ℝ, x0 i = r) ∧ (∀ i, ∃ r : ℝ, x1 i = r) ∧ (∀ i, ∃ r : ℝ, x2 i = r) := by
  have h1 := congrFun h ValueIdx.ix0
  dsimp only [fn] at h1
  obtain ⟨h12, hc⟩ := IntOp.andi_eq_one.1 h1
  obtain ⟨ha, hb⟩ := IntOp.andi_eq_one.1 h12
  exact ⟨fun i => real_of_abs_lt _ (Host.reduce_andi_all _ _ _ _ _ ha i),
    fun i => real_of_abs_lt _ (Host.reduce_andi_all _ _ _ _ _ hb i),
    fun i => real_of_abs_lt _ (Host.reduce_andi_all _ _ _ _ _ hc i)⟩

end Cert.Pre_finite_inputs.Finite

end
-- ==== Proof.lean ====
/-
  The kernel computes softmax attention block by block; the reference computes it for the whole batch at once.

  For queries `Q`, keys `K` and values `V` of shape `[16, 2048, 128]` both programs take, for every batch `b` and query
  row `n`, the scores `s m = c · ∑ e, Q[b,n,e] · K[b,m,e]` against every key row `m`, the weights `w m = exp (s m - max s)`
  and the total weight `L = ∑ m, w m`. The kernel returns `(∑ m, w m · V[b,m,d]) / L`; the reference returns
  `∑ m, (w m / L) · V[b,m,d]`. At the exact values these are the same number whenever `L` is a nonzero real and the
  weights and values are reals, and that is what finite inputs give: every score is then a real, so is the row's
  maximum, every weight is a positive real, and `L` is a positive real. So the precondition is used, once, for this law.

  The kernel's side: each grid point handles one batch and 512 query rows, with all keys and values of that batch
  in view; what it stores is read entry by entry (Proof/KernelRow.lean), each input block is read as its argument array
  and the output blocks tile the result (Proof/KernelBlocks.lean, Proof/KernelArray.lean). The reference's side is read
  one operation at a time (Proof/RefArray.lean). The law is Proof/Softmax.lean and Proof/Attention.lean; finiteness
  from the precondition is Proof/Finite.lean. The three frames are the programs' runs with the results dropped, and
  the kernel's idealization rewrote nothing, so there is nothing to preserve.
-/
import proofs.«133732_g36258113913187_cont_8to1_b_1881_2_alg».proof.Defs
import proofs.«133732_g36258113913187_cont_8to1_b_1881_2_alg».proof.Proof.Gen.Kernel
import proofs.«133732_g36258113913187_cont_8to1_b_1881_2_alg».proof.Proof.Gen.Kernel.Skeleton
import proofs.«133732_g36258113913187_cont_8to1_b_1881_2_alg».proof.Proof.Gen.Kernel.Launch
import proofs.«133732_g36258113913187_cont_8to1_b_1881_2_alg».proof.Proof.Gen.Kernel.Points
import proofs.«133732_g36258113913187_cont_8to1_b_1881_2_alg».proof.Proof.Gen.Kernel.Frame
import proofs.«133732_g36258113913187_cont_8to1_b_1881_2_alg».proof.Proof.Gen.KernelIdeal
import proofs.«133732_g36258113913187_cont_8to1_b_1881_2_alg».proof.Proof.Gen.KernelIdeal.Skeleton
import proofs.«133732_g36258113913187_cont_8to1_b_1881_2_alg».proof.Proof.Gen.KernelIdeal.Launch
import proofs.«133732_g36258113913187_cont_8to1_b_1881_2_alg».proof.Proof.Gen.KernelIdeal.Points
import proofs.«133732_g36258113913187_cont_8to1_b_1881_2_alg».proof.Proof.Gen.KernelIdeal.Frame
import proofs.«133732_g36258113913187_cont_8to1_b_1881_2_alg».proof.Proof.Gen.ReferenceIdeal
import proofs.«133732_g36258113913187_cont_8to1_b_1881_2_alg».proof.Proof.Gen.Pre_finite_inputs
import proofs.«133732_g36258113913187_cont_8to1_b_1881_2_alg».proof.Proof.Gen.KernelIdeal.Value
import proofs.«133732_g36258113913187_cont_8to1_b_1881_2_alg».proof.Proof.Gen.ReferenceIdeal.Run
import proofs.«133732_g36258113913187_cont_8to1_b_1881_2_alg».proof.Proof.Gen.ReferenceIdeal.Read
import proofs.«133732_g36258113913187_cont_8to1_b_1881_2_alg».proof.Proof.KernelArray
import proofs.«133732_g36258113913187_cont_8to1_b_1881_2_alg».proof.Proof.RefArray
import proofs.«133732_g36258113913187_cont_8to1_b_1881_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, all finite, both programs end with the result array at attention
    with each row's weighted sum divided once by the row's total weight: the kernel by its blocks, the reference because
    dividing every weight first gives the same reals. -/
theorem algebraic : Cert.algebraic_KernelIdeal_ReferenceIdeal := by
  intro m ρ m' ρ' hpre hagree
  refine ⟨fun c => Cert.Attention.divideOnce (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Attn.result_eq, (hagree c).1, (hagree c).2.1, (hagree c).2.2]
  obtain ⟨hq, hk, hv⟩ := Cert.Pre_finite_inputs.Finite.real_of_pre _ _ _ (hpre c)
  exact (Cert.Attention.divideOnce_eq_divideEach _ _ _ hq hk hv).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
